-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x625000 : Shape := ⟨2, ![2, 625000]⟩
abbrev S128x128 : Shape := ⟨2, ![128, 128]⟩
abbrev S128 : Shape := ⟨1, ![128]⟩
abbrev S_ : Shape := ⟨0, ![]⟩
abbrev S1x625000 : Shape := ⟨2, ![1, 625000]⟩
abbrev S625000 : Shape := ⟨1, ![625000]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  slices_S2x625000_S1x625000_0_0 : S2x625000.Slices ![0, 0] S1x625000
  shapeCasts_S1x625000_S625000 : S1x625000.ShapeCasts S625000
  bcast_S_S625000 : S_.BroadcastsInDim S625000 (![] : Fin 0 → Fin S625000.rank)
  reducesTo_S625000_S_d0 : S625000.ReducesTo [0] S_

variable [Facts]

def fn_part1 {F : FTy → Type} [FloatOps F] (main_arg1 : IVec S2x625000 32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : IVec S1x625000 32 := (extractStridedSlice S1x625000 ![0, 0] · slices_S2x625000_S1x625000_0_0) main_arg1
  let main_v20 : IVec S625000 32 := shapeCast S625000 main_v19 shapeCasts_S1x625000_S625000
  let main_c_6 : IVec S_ 32 := constantI S_ 32 4294867296#32
  let main_v21 : IVec S625000 32 := broadcastInDim S625000 ![] bcast_S_S625000 main_c_6
  let main_v22 : IVec S625000 1 := cmpi .sge main_v20 main_v21
  let main_v23 : IVec S1x625000 32 := (extractStridedSlice S1x625000 ![0, 0] · slices_S2x625000_S1x625000_0_0) main_arg1
  let main_v24 : IVec S625000 32 := shapeCast S625000 main_v23 shapeCasts_S1x625000_S625000
  let main_c_7 : IVec S_ 32 := constantI S_ 32 100000#32
  let main_v25 : IVec S625000 32 := broadcastInDim S625000 ![] bcast_S_S625000 main_c_7
  let main_v26 : IVec S625000 1 := cmpi .slt main_v24 main_v25
  let main_v27 : IVec S625000 1 := andi main_v22 main_v26
  let main_c_8 : IVec S_ 1 := constantI S_ 1 1#1
  let main_v28 : IVec S_ 1 := (fun x v => Host.reduce IntOp.andi x v reducesTo_S625000_S_d0 h_S_) main_v27 main_c_8
  let main_v29 : IVec S_ 1 := andi main_v18 main_v28
  main_v29

def fn {F : FTy → Type} [FloatOps F] (main_arg0 : FVec F S100000x128 .f32) (main_arg1 : IVec S2x625000 32) (main_arg2 : FVec F S128x128 .f32) (main_arg3 : FVec F S128 .f32) (main_arg4 : FVec F S128x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg1 main_v13 main_v16
-- ==== Kernel.lean ====
abbrev S100000x128 : Shape := ⟨2, ![100000, 128]⟩
abbrev S2x625000 : Shape := ⟨2, ![2, 625000]⟩
abbrev S128x128 : Shape := ⟨2, ![128, 128]⟩
abbrev S128 : Shape := ⟨1, ![128]⟩
abbrev S1x625000 : Shape := ⟨2, ![1, 625000]⟩
abbrev S625000 : Shape := ⟨1, ![625000]⟩
abbrev S_ : Shape := ⟨0, ![]⟩
abbrev S625000x1 : Shape := ⟨2, ![625000, 1]⟩
abbrev S1 : Shape := ⟨1, ![1]⟩
abbrev S1x1 : Shape := ⟨2, ![1, 1]⟩
abbrev S625000x128 : Shape := ⟨2, ![625000, 128]⟩
abbrev S100000 : Shape := ⟨1, ![100000]⟩
abbrev S100000x1 : Shape := ⟨2, ![100000, 1]⟩
abbrev S1x128 : Shape := ⟨2, ![1, 128]⟩
abbrev S4000x128 : Shape := ⟨2, ![4000, 128]⟩
abbrev S4000x1 : Shape := ⟨2, ![4000, 1]⟩

abbrev nBuf : Space → Nat
  | .hbm => 51
  | .vmem => 11
  | .smem => 0
  | _ => 0

abbrev bufTy : (tb : Table) → Fin (tcTables nBuf tb) → BufTy
  | .hbm, ⟨0, _⟩ => ⟨S100000x128, .f32⟩
  | .hbm, ⟨1, _⟩ => ⟨S2x625000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S1x625000, .i32⟩
  | .hbm, ⟨6, _⟩ => ⟨S625000, .i32⟩
  | .hbm, ⟨7, _⟩ => ⟨S1x625000, .i32⟩
  | .hbm, ⟨8, _⟩ => ⟨S625000, .i32⟩
  | .hbm, ⟨9, _⟩ => ⟨S_, .i32⟩
  | .hbm, ⟨10, _⟩ => ⟨S625000, .i32⟩
  | .hbm, ⟨11, _⟩ => ⟨S625000, .i1⟩
  | .hbm, ⟨12, _⟩ => ⟨S_, .i32⟩
  | .hbm, ⟨13, _⟩ => ⟨S625000, .i32⟩
  | .hbm, ⟨14, _⟩ => ⟨S625000, .i32⟩
  | .hbm, ⟨15, _⟩ => ⟨S625000, .i32⟩
  | .hbm, ⟨16, _⟩ => ⟨S625000x1, .i32⟩
  | .hbm, ⟨17, _⟩ => ⟨S1, .i32⟩
  | .hbm, ⟨18, _⟩ => ⟨S_, .i32⟩
  | .hbm, ⟨19, _⟩ => ⟨S625000x1, .i32⟩
  | .hbm, ⟨20, _⟩ => ⟨S625000x1, .i1⟩
  | .hbm, ⟨21, _⟩ => ⟨S1x1, .i32⟩
  | .hbm, ⟨22, _⟩ => ⟨S625000x1, .i32⟩
  | .hbm, ⟨23, _⟩ => ⟨S625000x1, .i1⟩
  | .hbm, ⟨24, _⟩ => ⟨S625000x1, .i1⟩
  | .hbm, ⟨25, _⟩ => ⟨S_, .i1⟩
  | .hbm, ⟨26, _⟩ => ⟨S625000, .i1⟩
  | .hbm, ⟨27, _⟩ => ⟨S625000x128, .f32⟩
  | .hbm, ⟨28, _⟩ => ⟨S625000x128, .i1⟩
  | .hbm, ⟨29, _⟩ => ⟨S_, .f32⟩
  | .hbm, ⟨30, _⟩ => ⟨S625000x128, .f32⟩
  | .hbm, ⟨31, _⟩ => ⟨S625000x128, .f32⟩
  | .hbm, ⟨32, _⟩ => ⟨S_, .f32⟩
  | .hbm, ⟨33, _⟩ => ⟨S100000x128, .f32⟩
  | .hbm, ⟨34, _⟩ => ⟨S625000x1, .i32⟩
  | .hbm, ⟨35, _⟩ => ⟨S100000x128, .f32⟩
  | .hbm, ⟨36, _⟩ => ⟨S_, .f32⟩
  | .hbm, ⟨37, _⟩ => ⟨S625000, .f32⟩
  | .hbm, ⟨38, _⟩ => ⟨S_, .f32⟩
  | .hbm, ⟨39, _⟩ => ⟨S100000, .f32⟩
  | .hbm, ⟨40, _⟩ => ⟨S625000x1, .i32⟩
  | .hbm, ⟨41, _⟩ => ⟨S100000, .f32⟩
  | .hbm, ⟨42, _⟩ => ⟨S_, .f32⟩
  | .hbm, ⟨43, _⟩ => ⟨S100000, .f32⟩
  | .hbm, ⟨44, _⟩ => ⟨S100000, .f32⟩
  | .hbm, ⟨45, _⟩ => ⟨S_, .f32⟩
  | .hbm, ⟨46, _⟩ => ⟨S100000, .f32⟩
  | .hbm, ⟨47, _⟩ => ⟨S100000, .f32⟩
  | .hbm, ⟨48, _⟩ => ⟨S100000x1, .f32⟩
  | .hbm, ⟨49, _⟩ => ⟨S1x128, .f32⟩
  | .hbm, ⟨50, _⟩ => ⟨S100000x128, .f32⟩
  | .local _ .vmem, ⟨0, _⟩ => ⟨S4000x128, .f32⟩
  | .local _ .vmem, ⟨1, _⟩ => ⟨S4000x128, .f32⟩
  | .local _ .vmem, ⟨2, _⟩ => ⟨S4000x1, .f32⟩
  | .local _ .vmem, ⟨3, _⟩ => ⟨S4000x1, .f32⟩
  | .local _ .vmem, ⟨4, _⟩ => ⟨S4000x128, .f32⟩
  | .local _ .vmem, ⟨5, _⟩ => ⟨S4000x128, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S4000x128, .f32⟩
  | .local _ .vmem, ⟨10, _⟩ => ⟨S4000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_c_1 : Ref sig .tc := ⟨.hbm, 17, rfl⟩
abbrev main_call0_c_2 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_3 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_cst : Ref sig .tc := ⟨.hbm, 29, rfl⟩
abbrev main_call0_v15 : Ref sig .tc := ⟨.hbm, 30, rfl⟩
abbrev main_v4 : Ref sig .tc := ⟨.hbm, 31, rfl⟩
abbrev main_cst : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_cst_0 : Ref sig .tc := ⟨.hbm, 36, rfl⟩
abbrev main_v8 : Ref sig .tc := ⟨.hbm, 37, rfl⟩
abbrev main_cst_1 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_cst_2 : Ref sig .tc := ⟨.hbm, 42, rfl⟩
abbrev main_v12 : Ref sig .tc := ⟨.hbm, 43, rfl⟩
abbrev main_v13 : Ref sig .tc := ⟨.hbm, 44, rfl⟩
abbrev main_cst_3 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S2x625000_S1x625000_0_0 : S2x625000.Slices ![0, 0] S1x625000
  shapeCasts_S1x625000_S625000 : S1x625000.ShapeCasts S625000
  slices_S2x625000_S1x625000_1_0 : S2x625000.Slices ![1, 0] S1x625000
  bcast_S_S625000 : S_.BroadcastsInDim S625000 (![] : Fin 0 → Fin S625000.rank)
  bcast_S625000_S625000x1_0 : S625000.BroadcastsInDim S625000x1 (![0] : Fin 1 → Fin S625000x1.rank)
  bcast_S_S625000x1 : S_.BroadcastsInDim S625000x1 (![] : Fin 0 → Fin S625000x1.rank)
  bcast_S1_S1x1_1 : S1.BroadcastsInDim S1x1 (![1] : Fin 1 → Fin S1x1.rank)
  bcast_S1x1_S625000x1_0_1 : S1x1.BroadcastsInDim S625000x1 (![0, 1] : Fin 2 → Fin S625000x1.rank)
  reducesTo_S625000x1_S625000_d1 : S625000x1.ReducesTo [1] S625000
  h_S_ : 0 < S_.numel
  bcast_S625000_S625000x128_0 : S625000.BroadcastsInDim S625000x128 (![0] : Fin 1 → Fin S625000x128.rank)
  bcast_S_S625000x128 : S_.BroadcastsInDim S625000x128 (![] : Fin 0 → Fin S625000x128.rank)
  bcast_S_S100000x128 : S_.BroadcastsInDim S100000x128 (![] : Fin 0 → Fin S100000x128.rank)
  bcast_S_S100000 : S_.BroadcastsInDim S100000 (![] : Fin 0 → Fin S100000.rank)
  shapeCasts_S100000_S100000x1 : S100000.ShapeCasts S100000x1
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  gather_S100000x128_S625000x1_S625000x128_1_0_n_n_0_1_1128_wf : GatherDims.WF S100000x128 S625000x1 S625000x128 [1] [0] [] [0] [] 1 ![1, 128]
  scatter_S100000x128_S625000x1_S625000x128_1_0_0_1_wf : ScatterDims.WF S100000x128 S625000x1 S625000x128 [1] [0] [0] 1
  scatter_S100000_S625000x1_S625000_n_0_0_1_wf : ScatterDims.WF S100000 S625000x1 S625000 [] [0] [0] 1
  dot_S4000x128_S128x128_S4000x128_1_0_0_1_n_n_wf : DotDims.WF S4000x128 S128x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x1.size a ≤ S100000x1.size a
  hwx0_1 : ∀ i : grid0.Coords, EltTy.bits .f32 = 32 ∨ (Rect.block (s := S100000x1) S4000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S100000x128.size a
  hwx0_2 : ∀ i : grid0.Coords, EltTy.bits .f32 = 32 ∨ (Rect.block (s := S100000x128) S4000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x128.size a ≤ S100000x128.size a
  hwx0_6 : ∀ i : grid0.Coords, EltTy.bits .f32 = 32 ∨ (Rect.block (s := S100000x128) S4000x128.size (cc0_transform_6 i) (hinb0_6 i)).WholeWords (EltTy.packing .f32)

variable [Facts₀]

def gather_S100000x128_S625000x1_S625000x128_1_0_n_n_0_1_1128 : GatherDims S100000x128 S625000x1 S625000x128 where
  offsetDims := [1]
  collapsedSliceDims := [0]
  operandBatchingDims := []
  startIndicesBatchingDims := []
  startIndexMap := [0]
  indexVectorDim := 1
  sliceSizes := ![1, 128]
  wf := gather_S100000x128_S625000x1_S625000x128_1_0_n_n_0_1_1128_wf
def scatter_S100000x128_S625000x1_S625000x128_1_0_0_1 : ScatterDims S100000x128 S625000x1 S625000x128 where
  updateWindowDims := [1]
  insertedWindowDims := [0]
  scatterDimsToOperandDims := [0]
  indexVectorDim := 1
  wf := scatter_S100000x128_S625000x1_S625000x128_1_0_0_1_wf
def scatter_S100000_S625000x1_S625000_n_0_0_1 : ScatterDims S100000 S625000x1 S625000 where
  updateWindowDims := []
  insertedWindowDims := [0]
  scatterDimsToOperandDims := [0]
  indexVectorDim := 1
  wf := scatter_S100000_S625000x1_S625000_n_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf

abbrev win0_0 : Pipeline.Window sig grid0 :=
  Pipeline.Window.ofSpec (Memref.whole main_v7) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S4000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S4000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v18) S4000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x625000 : Shape := ⟨2, ![2, 625000]⟩
abbrev S128x128 : Shape := ⟨2, ![128, 128]⟩
abbrev S128 : Shape := ⟨1, ![128]⟩
abbrev S1x625000 : Shape := ⟨2, ![1, 625000]⟩
abbrev S625000 : Shape := ⟨1, ![625000]⟩
abbrev S_ : Shape := ⟨0, ![]⟩
abbrev S625000x1 : Shape := ⟨2, ![625000, 1]⟩
abbrev S625000x128 : Shape := ⟨2, ![625000, 128]⟩
abbrev S100000 : Shape := ⟨1, ![100000]⟩
abbrev S100000x1 : Shape := ⟨2, ![100000, 1]⟩
abbrev S1x128 : Shape := ⟨2, ![1, 128]⟩

abbrev nBuf : Space → Nat
  | .hbm => 40
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x625000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S1x625000, .i32⟩
  | .hbm, ⟨6, _⟩ => ⟨S625000, .i32⟩
  | .hbm, ⟨7, _⟩ => ⟨S1x625000, .i32⟩
  | .hbm, ⟨8, _⟩ => ⟨S625000, .i32⟩
  | .hbm, ⟨9, _⟩ => ⟨S_, .i32⟩
  | .hbm, ⟨10, _⟩ => ⟨S625000, .i32⟩
  | .hbm, ⟨11, _⟩ => ⟨S625000, .i1⟩
  | .hbm, ⟨12, _⟩ => ⟨S_, .i32⟩
  | .hbm, ⟨13, _⟩ => ⟨S625000, .i32⟩
  | .hbm, ⟨14, _⟩ => ⟨S625000, .i32⟩
  | .hbm, ⟨15, _⟩ => ⟨S625000, .i32⟩
  | .hbm, ⟨16, _⟩ => ⟨S625000x1, .i32⟩
  | .hbm, ⟨17, _⟩ => ⟨S625000x128, .f32⟩
  | .hbm, ⟨18, _⟩ => ⟨S_, .f32⟩
  | .hbm, ⟨19, _⟩ => ⟨S100000x128, .f32⟩
  | .hbm, ⟨20, _⟩ => ⟨S625000x1, .i32⟩
  | .hbm, ⟨21, _⟩ => ⟨S100000x128, .f32⟩
  | .hbm, ⟨22, _⟩ => ⟨S_, .f32⟩
  | .hbm, ⟨23, _⟩ => ⟨S625000, .f32⟩
  | .hbm, ⟨24, _⟩ => ⟨S_, .f32⟩
  | .hbm, ⟨25, _⟩ => ⟨S100000, .f32⟩
  | .hbm, ⟨26, _⟩ => ⟨S625000x1, .i32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S100000x128, .f32⟩
  | .hbm, ⟨33, _⟩ => ⟨S100000x128, .f32⟩
  | .hbm, ⟨34, _⟩ => ⟨S100000x128, .f32⟩
  | .hbm, ⟨35, _⟩ => ⟨S1x128, .f32⟩
  | .hbm, ⟨36, _⟩ => ⟨S100000x128, .f32⟩
  | .hbm, ⟨37, _⟩ => ⟨S100000x128, .f32⟩
  | .hbm, ⟨38, _⟩ => ⟨S100000x128, .f32⟩
  | .hbm, ⟨39, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]

class Facts₀ : Prop where
  slices_S2x625000_S1x625000_0_0 : S2x625000.Slices ![0, 0] S1x625000
  shapeCasts_S1x625000_S625000 : S1x625000.ShapeCasts S625000
  slices_S2x625000_S1x625000_1_0 : S2x625000.Slices ![1, 0] S1x625000
  bcast_S_S625000 : S_.BroadcastsInDim S625000 (![] : Fin 0 → Fin S625000.rank)
  bcast_S625000_S625000x1_0 : S625000.BroadcastsInDim S625000x1 (![0] : Fin 1 → Fin S625000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S625000x1_S625000x128_1_0_n_n_0_1_1128_wf : GatherDims.WF S100000x128 S625000x1 S625000x128 [1] [0] [] [0] [] 1 ![1, 128]
  scatter_S100000x128_S625000x1_S625000x128_1_0_0_1_wf : ScatterDims.WF S100000x128 S625000x1 S625000x128 [1] [0] [0] 1
  scatter_S100000_S625000x1_S625000_n_0_0_1_wf : ScatterDims.WF S100000 S625000x1 S625000 [] [0] [0] 1
  dot_S100000x128_S128x128_S100000x128_1_0_0_1_n_n_wf : DotDims.WF S100000x128 S128x128 S100000x128 [1] [0] [0] [1] [] []

variable [Facts₀]

def gather_S100000x128_S625000x1_S625000x128_1_0_n_n_0_1_1128 : GatherDims S100000x128 S625000x1 S625000x128 where
  offsetDims := [1]
  collapsedSliceDims := [0]
  operandBatchingDims := []
  startIndicesBatchingDims := []
  startIndexMap := [0]
  indexVectorDim := 1
  sliceSizes := ![1, 128]
  wf := gather_S100000x128_S625000x1_S625000x128_1_0_n_n_0_1_1128_wf
def scatter_S100000x128_S625000x1_S625000x128_1_0_0_1 : ScatterDims S100000x128 S625000x1 S625000x128 where
  updateWindowDims := [1]
  insertedWindowDims := [0]
  scatterDimsToOperandDims := [0]
  indexVectorDim := 1
  wf := scatter_S100000x128_S625000x1_S625000x128_1_0_0_1_wf
def scatter_S100000_S625000x1_S625000_n_0_0_1 : ScatterDims S100000 S625000x1 S625000 where
  updateWindowDims := []
  insertedWindowDims := [0]
  scatterDimsToOperandDims := [0]
  indexVectorDim := 1
  wf := scatter_S100000_S625000x1_S625000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KernelHost.lean ====
/-
  What the kernel program's host operations leave in the three arrays its fused call reads besides the arguments.

  Before the call, the program takes the rows of x at the edges' source nodes (negative node numbers wrapped by +100000,
  and a row replaced by a fill value where the wrapped number is outside [0, 99999]), scatter-adds them at the edges'
  target nodes into the aggregate, counts each node's incoming edges, and forms the column of reciprocals
  1 / max(count, 1); the bias vector is re-laid as one row.  Each array is named here as that composition of operations
  of the argument arrays.
-/
import proofs.«401643_j90778428768717_3_alg».proof.Proof.Gen.KernelIdeal.Frame
import Idealize.ShloMosaic.Lib.StableHlo.Run

noncomputable section

namespace Cert.KernelIdeal.Host

open Cert.KernelIdeal Cert.KernelIdeal.Gen Idealize.ShloMosaic Idealize.ShloMosaic.TcCoe Idealize.SL.Sem Idealize.ShloMosaic.StableHlo

variable {F : FTy → Type} [FloatOps F]

/-- The source node of every edge: the edge list's first row. -/
def srcK (ei : IVec S2x625000 32) : IVec S625000 32 :=
  shapeCast S625000 (extractStridedSlice S1x625000 ![0, 0] ei slices_S2x625000_S1x625000_0_0) shapeCasts_S1x625000_S625000

/-- The target node of every edge: the edge list's second row. -/
def dstK (ei : IVec S2x625000 32) : IVec S625000 32 :=
  shapeCast S625000 (extractStridedSlice S1x625000 ![1, 0] ei slices_S2x625000_S1x625000_1_0) shapeCasts_S1x625000_S625000

/-- The source nodes with negative numbers wrapped by +100000. -/
def wrapK (ei : IVec S2x625000 32) : IVec S625000 32 :=
  select (cmpi .slt (srcK ei) (broadcastInDim S625000 ![] bcast_S_S625000 (constantI S_ 32 0#32)))
    (addi (srcK ei) (broadcastInDim S625000 ![] bcast_S_S625000 (constantI S_ 32 100000#32))) (srcK ei)

/-- The same as a column. -/
def wrapColK (ei : IVec S2x625000 32) : IVec S625000x1 32 :=
  broadcastInDim S625000x1 ![0] bcast_S625000_S625000x1_0 (wrapK ei)

/-- Per edge: is the wrapped source node a row of x, that is, in [0, 99999]? -/
def inRowsK (ei : IVec S2x625000 32) : IVec S625000 1 :=
  Host.reduce IntOp.andi
    (andi (cmpi .sge (wrapColK ei) (broadcastInDim S625000x1 ![] bcast_S_S625000x1 (constantI S_ 32 0#32)))
      (cmpi .sle (wrapColK ei) (broadcastInDim S625000x1 ![0, 1] bcast_S1x1_S625000x1_0_1
        (broadcastInDim S1x1 ![1] bcast_S1_S1x1_1 (constantI S1 32 99999#32)))))
    (constantI S_ 1 1#1) reducesTo_S625000x1_S625000_d1 h_S_

/-- The rows of x at the wrapped source nodes. -/
def rowsK (x : FVec F S100000x128 .f32) (ei : IVec S2x625000 32) : FVec F S625000x128 .f32 :=
  Host.gather gather_S100000x128_S625000x1_S625000x128_1_0_n_n_0_1_1128 x (wrapColK ei)

/-- The messages: the gathered row where the source node is a row of x, the fill value elsewhere. -/
def msgsK (x : FVec F S100000x128 .f32) (ei : IVec S2x625000 32) : FVec F S625000x128 .f32 :=
  select (broadcastInDim S625000x128 ![0] bcast_S625000_S625000x128_0 (inRowsK ei)) (rowsK x ei)
    (broadcastInDim S625000x128 ![] bcast_S_S625000x128 (constant S_ .f32 0x7FC00000#32))

/-- Messages scatter-added at the target nodes, from zero. -/
def aggOf (ei : IVec S2x625000 32) (msgs : FVec F S625000x128 .f32) : FVec F S100000x128 .f32 :=
  Host.scatterAdd scatter_S100000x128_S625000x1_S625000x128_1_0_0_1
    (broadcastInDim S100000x128 ![] bcast_S_S100000x128 (constant S_ .f32 0x00000000#32))
    (broadcastInDim S625000x1 ![0] bcast_S625000_S625000x1_0 (dstK ei)) msgs

/-- Each node's number of incoming edges, clamped below by one. -/
def degK (ei : IVec S2x625000 32) : FVec F S100000 .f32 :=
  maximumf
    (Host.scatterAdd scatter_S100000_S625000x1_S625000_n_0_0_1
      (broadcastInDim S100000 ![] bcast_S_S100000 (constant S_ .f32 0x00000000#32))
      (broadcastInDim S625000x1 ![0] bcast_S625000_S625000x1_0 (dstK ei))
      (broadcastInDim S625000 ![] bcast_S_S625000 (constant S_ .f32 0x3F800000#32)))
    (broadcastInDim S100000 ![] bcast_S_S100000 (constant S_ .f32 0x3F800000#32))

/-- The column of reciprocals of the clamped degrees. -/
def recipK (ei : IVec S2x625000 32) : FVec F S100000x1 .f32 :=
  shapeCast S100000x1
    (Host.divf (broadcastInDim S100000 ![] bcast_S_S100000 (constant S_ .f32 0x3F800000#32)) (degK (F := F) ei))
    shapeCasts_S100000_S100000x1

variable (m : (ℓ : Loc nD τ sig) → Buf (Elt F) ℓ)

/-- The bias row the call reads is the bias vector re-laid. -/
theorem V_bias (c : Dev nD) :
    V m c main_v17 = shapeCast S1x128 (m ((c : Thread nD τ).loc main_arg3)) shapeCasts_S128_S1x128 := by
  dsimp only [V]
  simp only [hostOps0, hostOps0_1, hostOps0_2, List.flatten_cons, List.flatten_nil, List.append_nil, List.cons_append, List.nil_append]
  after_results
  rfl

/-- The reciprocal column the call reads. -/
theorem V_recip (c : Dev nD) : V m c main_v16 = recipK (F := F) (m ((c : Thread nD τ).loc main_arg1)) := by
  dsimp only [V]
  simp only [hostOps0, hostOps0_1, hostOps0_2, List.flatten_cons, List.flatten_nil, List.append_nil, List.cons_append, List.nil_append]
  after_results
  rfl

set_option maxHeartbeats 4000000 in
set_option maxRecDepth 1000000 in
/-- The aggregate the call reads. -/
theorem V_agg (c : Dev nD) :
    V m c main_v7 = aggOf (m ((c : Thread nD τ).loc main_arg1))
      (msgsK (F := F) (m ((c : Thread nD τ).loc main_arg0)) (m ((c : Thread nD τ).loc main_arg1))) := by
  dsimp only [V]
  simp only [hostOps0, hostOps0_1, hostOps0_2, List.flatten_cons, List.flatten_nil, List.append_nil, List.cons_append, List.nil_append]
  after_results
  rfl

end Cert.KernelIdeal.Host

end
-- ==== Proof.KernelBody.lean ====
/-
  The fused call's body, read at one entry of its output block.

  At a block of 4000 nodes the body forms (aggregate block * reciprocal column) · Wl + bias row + (x block) · Wr, the
  matrix products taken on operands narrowed to a shorter float format.  On the extended reals a change of float format
  is the identity and a product into a zero accumulator is the plain sum over the 128 input features, so entry (p, q) is
      (sum over k of (agg[p, k] * recip[p, 0]) * Wl[k, q]) + bias[0, q] + (sum over k of x[p, k] * Wr[k, q]).
-/
import proofs.«401643_j90778428768717_3_alg».proof.Proof.Gen.KernelIdeal.Skeleton
import Idealize.ShloMosaic.PureOps.Ideal.Laws
import Idealize.ShloMosaic.Lib.ValueIdx
import Idealize.ShloMosaic.Lib.Pipeline.Value
import Idealize.ShloMosaic.Lib.ValueLayout

noncomputable section

open scoped BigOperators

namespace Cert.KernelIdeal.Body

open Cert.KernelIdeal Cert.KernelIdeal.Gen Idealize.ShloMosaic Idealize.ShloMosaic.ValueIdx

/-! ## The product's operand indices, axis by axis -/

theorem lhs_axis0 (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
theorem lhs_axis1 (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
theorem rhs_axis0 (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
theorem rhs_axis1 (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- A [4000 × 128] by [128 × 128] product into zero, at entry i: the sum over the 128 features. -/
theorem matmul_zero_apply {φ₁ φ₂ : FTy} (l : FVec Ideal S4000x128 φ₁) (r : FVec Ideal S128x128 φ₂) (i : S4000x128.Idx) :
    matmul dot_S4000x128_S128x128_S4000x128_1_0_0_1_n_n none l r (constant S4000x128 .f32 0x00000000#32) i
      = ∑ k : Fin 128, l (ix2 (n0 := 4000) (n1 := 128) (i 0) k) * r (ix2 (n0 := 128) (n1 := 128) k (i 1)) := by
  simp only [matmul]
  rw [Ideal.matmul_constant_zero_apply, ← Equiv.sum_comp (contrEquiv1 dot_S4000x128_S128x128_S4000x128_1_0_0_1_n_n 128 rfl rfl).symm]
  refine Finset.sum_congr rfl fun k _ => ?_
  have hk := contrEquiv1_symm_val dot_S4000x128_S128x128_S4000x128_1_0_0_1_n_n 128 rfl rfl k
  have el : dot_S4000x128_S128x128_S4000x128_1_0_0_1_n_n.lhsIdx i ((contrEquiv1 dot_S4000x128_S128x128_S4000x128_1_0_0_1_n_n 128 rfl rfl).symm k) = ix2 (n0 := 4000) (n1 := 128) (i 0) k := funext fun a => Fin.ext (by
    match a with
    | ⟨0, _⟩ => exact lhs_axis0 _ _
    | ⟨1, _⟩ => exact (lhs_axis1 _ _).trans hk)
  have er : dot_S4000x128_S128x128_S4000x128_1_0_0_1_n_n.rhsIdx i ((contrEquiv1 dot_S4000x128_S128x128_S4000x128_1_0_0_1_n_n 128 rfl rfl).symm k) = ix2 (n0 := 128) (n1 := 128) k (i 1) := funext fun a => Fin.ext (by
    match a with
    | ⟨0, _⟩ => exact (rhs_axis0 _ _).trans hk
    | ⟨1, _⟩ => exact rhs_axis1 _ _)
  rw [el, er]

/-- A column [a × 1] broadcast to [a × b] reads, at (p, c), the column at p. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The body's stored value at entry (p, q) of the block. -/
theorem pay_apply (x0 : Vec Ideal S4000x128 .f32) (x1 : Vec Ideal S4000x1 .f32) (x2 : Vec Ideal S4000x128 .f32)
    (x3 : Vec Ideal S128x128 .f32) (x4 : Vec Ideal S128x128 .f32) (x5 : Vec Ideal S1x128 .f32) (p : Fin 4000) (q : Fin 128) :
    k0_pay1 x0 x1 x2 x3 x4 x5 (ix2 p q)
      = (∑ k : Fin 128, (x0 (ix2 p k) * x1 (ix2 p (0 : Fin 1))) * x3 (ix2 k q)) + x5 (ix2 (0 : Fin 1) q)
        + ∑ k : Fin 128, x2 (ix2 p k) * x4 (ix2 k q) := by
  unfold k0_pay1
  rw [addf_apply, addf_apply, matmul_zero_apply, matmul_zero_apply, shapeCast_self, shapeCast_self, shapeCast_self,
    broadcastTo_1b_ab_apply]
  refine congrArg₂ (fun (a b : EReal) => a + b) (congrArg₂ (fun (a b : EReal) => a + b)
    (Finset.sum_congr rfl fun k _ => ?_) rfl) (Finset.sum_congr rfl fun k _ => ?_)
  · rw [truncf_apply, truncf_apply, mulf_apply]
    show x0 (ix2 p k) * broadcastTo S4000x128 x1 broadcasts_S4000x1_S4000x128 (ix2 p k) * x3 (ix2 k q) = _
    rw [broadcastTo_a1_ab_apply]
  · rw [truncf_apply, truncf_apply]

/-- The same at any index j of the block, by its two coordinates. -/
theorem pay_apply_idx (x0 : Vec Ideal S4000x128 .f32) (x1 : Vec Ideal S4000x1 .f32) (x2 : Vec Ideal S4000x128 .f32)
    (x3 : Vec Ideal S128x128 .f32) (x4 : Vec Ideal S128x128 .f32) (x5 : Vec Ideal S1x128 .f32) (j : S4000x128.Idx) :
    k0_pay1 x0 x1 x2 x3 x4 x5 j
      = (∑ k : Fin 128, (x0 (ix2 (n0 := 4000) (n1 := 128) (j 0) k) * x1 (ix2 (n0 := 4000) (n1 := 1) (j 0) (0 : Fin 1)))
            * x3 (ix2 (n0 := 128) (n1 := 128) k (j 1)))
          + x5 (ix2 (n0 := 1) (n1 := 128) (0 : Fin 1) (j 1))
        + ∑ k : Fin 128, x2 (ix2 (n0 := 4000) (n1 := 128) (j 0) k) * x4 (ix2 (n0 := 128) (n1 := 128) k (j 1)) := by
  exact (congrArg (k0_pay1 x0 x1 x2 x3 x4 x5) (eq_ix2 (n0 := 4000) (n1 := 128) j)).trans
    (pay_apply x0 x1 x2 x3 x4 x5 (j 0) (j 1))

end Cert.KernelIdeal.Body

end
-- ==== Proof.KernelValue.lean ====
/-
  The kernel program's result array as ONE function of the arrays its fused call reads.

  The call runs over 25 blocks of 4000 nodes.  At block t the body reads rows [4000 t, 4000 t + 4000) of the aggregate,
  of the reciprocal column and of x, the two weight matrices and the bias row whole, and writes the same rows of the
  result.  Entry by entry (KernelBody) what it writes is the function `fused` below of those arrays; the 25 blocks cover
  the result, so after the run the result array IS that function.
-/
import proofs.«401643_j90778428768717_3_alg».proof.Proof.Gen.KernelIdeal.Value
import proofs.«401643_j90778428768717_3_alg».proof.Proof.KernelBody

set_option maxRecDepth 16384

noncomputable section

open scoped BigOperators

namespace Cert.KernelIdeal.Whole

open Cert.KernelIdeal Cert.KernelIdeal.Gen Idealize.ShloMosaic Idealize.ShloMosaic.TcCoe Idealize.SL.Sem Idealize.ShloMosaic.ValueIdx
open Idealize.ShloMosaic.Pipeline (Dat)

/-- What the fused call computes, entry by entry, from the aggregate A, the reciprocal column R, x, the weights and
    the bias row B. -/
def fused (A : S100000x128.Idx → EReal) (R : S100000x1.Idx → EReal) (x : S100000x128.Idx → EReal)
    (Wl : S128x128.Idx → EReal) (B : S1x128.Idx → EReal) (Wr : S128x128.Idx → EReal) : S100000x128.Idx → EReal := fun i =>
  (∑ k : Fin 128, (A (ix2 (n0 := 100000) (n1 := 128) (i 0) k) * R (ix2 (n0 := 100000) (n1 := 1) (i 0) (0 : Fin 1)))
        * Wl (ix2 (n0 := 128) (n1 := 128) k (i 1)))
      + B (ix2 (n0 := 1) (n1 := 128) (0 : Fin 1) (i 1))
    + ∑ k : Fin 128, x (ix2 (n0 := 100000) (n1 := 128) (i 0) k) * Wr (ix2 (n0 := 128) (n1 := 128) k (i 1))

variable (m : (ℓ : Loc nD τ sig) → Buf (Elt Ideal) ℓ) (ρ : Dev nD → PrngReg)

/-! ## The blocks and the arrays, at their literal types -/

abbrev aggBlk (c : Dev nD) (t : Fin cfg0.N) : Vec Ideal S4000x128 .f32 := iblk m c 0 t
abbrev recBlk (c : Dev nD) (t : Fin cfg0.N) : Vec Ideal S4000x1 .f32 := iblk m c 1 t
abbrev xBlk (c : Dev nD) (t : Fin cfg0.N) : Vec Ideal S4000x128 .f32 := iblk m c 2 t
abbrev wlBlk (c : Dev nD) (t : Fin cfg0.N) : Vec Ideal S128x128 .f32 := iblk m c 3 t
abbrev wrBlk (c : Dev nD) (t : Fin cfg0.N) : Vec Ideal S128x128 .f32 := iblk m c 4 t
abbrev bBlk (c : Dev nD) (t : Fin cfg0.N) : Vec Ideal S1x128 .f32 := iblk m c 5 t
abbrev aggArr (c : Dev nD) : Vec Ideal S100000x128 .f32 := V m c main_v7
abbrev recArr (c : Dev nD) : Vec Ideal S100000x1 .f32 := V m c main_v16
abbrev xArr (c : Dev nD) : Vec Ideal S100000x128 .f32 := V m c main_arg0
abbrev wlArr (c : Dev nD) : Vec Ideal S128x128 .f32 := V m c main_arg2
abbrev wrArr (c : Dev nD) : Vec Ideal S128x128 .f32 := V m c main_arg4
abbrev bArr (c : Dev nD) : Vec Ideal S1x128 .f32 := V m c main_v17

theorem hz : (![0, 0] : Fin 2 → Nat) = fun _ => 0 := funext fun a => by fin_cases a <;> rfl

/-- The windows' block numbers at point t, decided over the 25 points: the three row-blocked inputs move with the output,
    whose block number along the nodes is t; every other block number is 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-! ## Each input window's block, read through the window at point t, is the array at the rows the point covers -/

theorem read_blk0 (A : S100000x128.Idx → EReal) (t : Fin cfg0.N) (p : Fin 4000) (k : Fin 128) (P : Fin 100000)
    (hP : P.val = t.val * 4000 + p.val) :
    ((cfg0.win 0).blk t).view.read (Elt Ideal) A (ix2 p k) = A (ix2 P k) := by
  obtain ⟨e00, e01, -⟩ := idx_facts t
  show A (((cfg0.win 0).blk t).view.emb (ix2 p k)) = A (ix2 P k)
  refine congrArg A (funext fun a => Fin.ext ?_)
  match a with
  | ⟨0, _⟩ => show win0_0.index t (0 : Fin 2) * 4000 + 1 * p.val = P.val; omega
  | ⟨1, _⟩ => show win0_0.index t (1 : Fin 2) * 128 + 1 * k.val = k.val; omega

theorem read_blk1 (R : S100000x1.Idx → EReal) (t : Fin cfg0.N) (p : Fin 4000) (P : Fin 100000)
    (hP : P.val = t.val * 4000 + p.val) :
    ((cfg0.win 1).blk t).view.read (Elt Ideal) R (ix2 p (0 : Fin 1)) = R (ix2 P (0 : Fin 1)) := by
  obtain ⟨-, -, e10, e11, -⟩ := idx_facts t
  show R (((cfg0.win 1).blk t).view.emb (ix2 p (0 : Fin 1))) = R (ix2 P (0 : Fin 1))
  refine congrArg R (funext fun a => Fin.ext ?_)
  match a with
  | ⟨0, _⟩ => show win0_1.index t (0 : Fin 2) * 4000 + 1 * p.val = P.val; omega
  | ⟨1, _⟩ => show win0_1.index t (1 : Fin 2) * 1 + 1 * 0 = 0; omega

theorem read_blk2 (X : S100000x128.Idx → EReal) (t : Fin cfg0.N) (p : Fin 4000) (k : Fin 128) (P : Fin 100000)
    (hP : P.val = t.val * 4000 + p.val) :
    ((cfg0.win 2).blk t).view.read (Elt Ideal) X (ix2 p k) = X (ix2 P k) := by
  obtain ⟨-, -, -, -, e20, e21, -⟩ := idx_facts t
  show X (((cfg0.win 2).blk t).view.emb (ix2 p k)) = X (ix2 P k)
  refine congrArg X (funext fun a => Fin.ext ?_)
  match a with
  | ⟨0, _⟩ => show win0_2.index t (0 : Fin 2) * 4000 + 1 * p.val = P.val; omega
  | ⟨1, _⟩ => show win0_2.index t (1 : Fin 2) * 128 + 1 * k.val = k.val; omega

theorem read_blk3 (W : S128x128.Idx → EReal) (t : Fin cfg0.N) (k : Fin 128) (q : Fin 128) (Q : Fin 128)
    (hQ : Q.val = q.val) :
    ((cfg0.win 3).blk t).view.read (Elt Ideal) W (ix2 k q) = W (ix2 k Q) := by
  obtain ⟨-, -, -, -, -, -, e30, e31, -⟩ := idx_facts t
  show W (((cfg0.win 3).blk t).view.emb (ix2 k q)) = W (ix2 k Q)
  refine congrArg W (funext fun a => Fin.ext ?_)
  match a with
  | ⟨0, _⟩ => show win0_3.index t (0 : Fin 2) * 128 + 1 * k.val = k.val; omega
  | ⟨1, _⟩ => show win0_3.index t (1 : Fin 2) * 128 + 1 * q.val = Q.val; omega

theorem read_blk4 (W : S128x128.Idx → EReal) (t : Fin cfg0.N) (k : Fin 128) (q : Fin 128) (Q : Fin 128)
    (hQ : Q.val = q.val) :
    ((cfg0.win 4).blk t).view.read (Elt Ideal) W (ix2 k q) = W (ix2 k Q) := by
  obtain ⟨-, -, -, -, -, -, -, -, e40, e41, -⟩ := idx_facts t
  show W (((cfg0.win 4).blk t).view.emb (ix2 k q)) = W (ix2 k Q)
  refine congrArg W (funext fun a => Fin.ext ?_)
  match a with
  | ⟨0, _⟩ => show win0_4.index t (0 : Fin 2) * 128 + 1 * k.val = k.val; omega
  | ⟨1, _⟩ => show win0_4.index t (1 : Fin 2) * 128 + 1 * q.val = Q.val; omega

theorem read_blk5 (B : S1x128.Idx → EReal) (t : Fin cfg0.N) (q : Fin 128) (Q : Fin 128) (hQ : Q.val = q.val) :
    ((cfg0.win 5).blk t).view.read (Elt Ideal) B (ix2 (0 : Fin 1) q) = B (ix2 (0 : Fin 1) Q) := by
  obtain ⟨-, -, -, -, -, -, -, -, -, -, e50, e51, -⟩ := idx_facts t
  show B (((cfg0.win 5).blk t).view.emb (ix2 (0 : Fin 1) q)) = B (ix2 (0 : Fin 1) Q)
  refine congrArg B (funext fun a => Fin.ext ?_)
  match a with
  | ⟨0, _⟩ => show win0_5.index t (0 : Fin 2) * 1 + 1 * 0 = 0; omega
  | ⟨1, _⟩ => show win0_5.index t (1 : Fin 2) * 128 + 1 * q.val = Q.val; omega

/-! ## What point t writes back -/

/-- Whatever arrays the six input windows stage: what point t writes back is block t of `fused` of those arrays. -/
theorem flushed_of (A : S100000x128.Idx → EReal) (R : S100000x1.Idx → EReal) (X : S100000x128.Idx → EReal)
    (Wl : S128x128.Idx → EReal) (B : S1x128.Idx → EReal) (Wr : S128x128.Idx → EReal) (c : Dev nD) (t : Fin cfg0.N)
    (h0 : iblk m c 0 t = ((cfg0.win 0).blk t).view.read (Elt Ideal) A)
    (h1 : iblk m c 1 t = ((cfg0.win 1).blk t).view.read (Elt Ideal) R)
    (h2 : iblk m c 2 t = ((cfg0.win 2).blk t).view.read (Elt Ideal) X)
    (h3 : iblk m c 3 t = ((cfg0.win 3).blk t).view.read (Elt Ideal) Wl)
    (h4 : iblk m c 4 t = ((cfg0.win 4).blk t).view.read (Elt Ideal) Wr)
    (h5 : iblk m c 5 t = ((cfg0.win 5).blk t).view.read (Elt Ideal) B) :
    (dats m 0 c).flushed 6 t = ((cfg0.win 6).blk t).view.read (Elt Ideal) (fused A R X Wl B Wr) := by
  rw [Value.flushed6, h0, h1, h2, h3, h4, h5]
  unfold out0_6
  rw [View.canon_unit_zero hz]
  simp only [View.ld_unit_zero (S := S4000x128) hz, View.ld_unit_zero (S := S4000x1) hz,
    View.ld_unit_zero (S := S128x128) hz, View.ld_unit_zero (S := S1x128) hz]
  obtain ⟨-, -, -, -, -, -, -, -, -, -, -, -, e60, e61⟩ := idx_facts t
  funext j
  have hP : ((((cfg0.win 6).blk t).view.emb j) 0).val = t.val * 4000 + (j 0).val := by
    show win0_6.index t (0 : Fin 2) * 4000 + 1 * (j 0).val = _
    omega
  have hQ : ((((cfg0.win 6).blk t).view.emb j) 1).val = (j 1).val := by
    show win0_6.index t (1 : Fin 2) * 128 + 1 * (j 1).val = _
    omega
  show k0_pay1 (((cfg0.win 0).blk t).view.read (Elt Ideal) A) (((cfg0.win 1).blk t).view.read (Elt Ideal) R)
      (((cfg0.win 2).blk t).view.read (Elt Ideal) X) (((cfg0.win 3).blk t).view.read (Elt Ideal) Wl)
      (((cfg0.win 4).blk t).view.read (Elt Ideal) Wr) (((cfg0.win 5).blk t).view.read (Elt Ideal) B) j
    = fused A R X Wl B Wr (((cfg0.win 6).blk t).view.emb j)
  refine (Body.pay_apply_idx _ _ _ _ _ _ j).trans ?_
  unfold fused
  refine congrArg₂ (fun (a b : EReal) => a + b) (congrArg₂ (fun (a b : EReal) => a + b)
    (Finset.sum_congr rfl fun k _ => ?_) ?_) (Finset.sum_congr rfl fun k _ => ?_)
  · rw [read_blk0 A t (j 0) k _ hP, read_blk1 R t (j 0) _ hP, read_blk3 Wl t k (j 1) _ hQ]
  · rw [read_blk5 B t (j 1) _ hQ]
  · rw [read_blk2 X t (j 0) k _ hP, read_blk4 Wr t k (j 1) _ hQ]

/-- What point t writes back is block t of `fused` of the arrays the call reads, as the call finds them. -/
theorem flushed_eq (c : Dev nD) (t : Fin cfg0.N) :
    (dats m 0 c).flushed 6 t = ((cfg0.win 6).blk t).view.read (Elt Ideal)
      (fused (aggArr m c) (recArr m c) (xArr m c) (wlArr m c) (bArr m c) (wrArr m c)) :=
  flushed_of m (aggArr m c) (recArr m c) (xArr m c) (wlArr m c) (bArr m c) (wrArr m c) c t rfl rfl rfl rfl rfl rfl

/-! ## The 25 blocks cover the result -/

/-- An index of the result is in point t's block iff each coordinate is in the block's range on its axis. -/
theorem mem_blk6 (t : Fin cfg0.N) (i : S100000x128.Idx) :
    i ∈ ((cfg0.win 6).blk t).view.set ↔ ∀ a : Fin 2, win0_6.index t a * S4000x128.size a ≤ (i a).val ∧ (i a).val < win0_6.index t a * S4000x128.size a + S4000x128.size a := by
  show i ∈ ((View.whole main_v18).slice (win0_6.rect t)).set ↔ _
  rw [View.set_slice_whole, Rect.mem_set_unit]
  exact Iff.rfl

/-- Node i lies in the block of point i / 4000. -/
theorem cover6 (i : S100000x128.Idx) :
    ∃ t : Fin cfg0.N, (cfg0.win 6).flush t = true ∧ i ∈ ((cfg0.win 6).blk t).view.set := by
  have hi0 : (i 0).val < 100000 := (i 0).isLt
  have hi1 : (i 1).val < 128 := (i 1).isLt
  have hN : cfg0.N = 25 := N_0
  refine ⟨⟨(i 0).val / 4000, by omega⟩, flush0_6 _, ?_⟩
  obtain ⟨-, -, -, -, -, -, -, -, -, -, -, -, e60, e61⟩ := idx_facts ⟨(i 0).val / 4000, by omega⟩
  rw [mem_blk6]
  intro a
  match a with
  | ⟨0, _⟩ =>
    show win0_6.index _ (0 : Fin 2) * 4000 ≤ (i 0).val ∧ (i 0).val < win0_6.index _ (0 : Fin 2) * 4000 + 4000
    rw [e60]
    show (i 0).val / 4000 * 4000 ≤ (i 0).val ∧ (i 0).val < (i 0).val / 4000 * 4000 + 4000
    omega
  | ⟨1, _⟩ =>
    show win0_6.index _ (1 : Fin 2) * 128 ≤ (i 1).val ∧ (i 1).val < win0_6.index _ (1 : Fin 2) * 128 + 128
    rw [e61]
    omega

/-- After the run the result array is `fused` of the arrays the call read. -/
theorem final (c : Dev nD) :
    (dats m 0 c).arrAt 6 cfg0.N = fused (aggArr m c) (recArr m c) (xArr m c) (wlArr m c) (bArr m c) (wrArr m c) :=
  (dats m 0 c).arrAt_eq_of_cover 6 _ (fun t _ => flushed_eq m c t) cover6

/-- The kernel program's run with its result named, the arguments unchanged. -/
theorem run : θ_run defs (onTc (τ := τ) (main (F := Ideal))) ⟨m, fun _ => 0, ρ⟩ fun r => ∀ c : Dev nD,
      r.2.mem ((c : Thread nD τ).loc main_v18) = fused (aggArr m c) (recArr m c) (xArr m c) (wlArr m c) (bArr m c) (wrArr m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.Whole

end
-- ==== Proof.MeanSpec.lean ====
/-
  The mathematics both programs meet in, over plain arrays of extended reals.

  A graph layer with mean aggregation: for node i and output feature j,
      out[i, j] = (sum over k of (A[i, k] / D[i]) * Wl[k, j]) + b[j] + (sum over k of x[i, k] * Wr[k, j]),
  where A[i, :] is the sum of the feature rows of i's in-neighbours and D[i] = max(in-degree of i, 1).
  One program divides the aggregate by D; the other multiplies it by the reciprocal 1 / D, computed beforehand.
  On the extended reals a / d = a * d⁻¹ whenever d is not zero — at the infinities too — and 1 / d = d⁻¹ there,
  so the two agree as soon as D[i] is not zero, which max(., 1) guarantees.  No finiteness is needed.

  Also here: the arithmetic of wrapping a node number.  A signed 32-bit number s with -100000 <= s < 100000,
  replaced by s + 100000 when it is negative, lies in [0, 99999].
-/
import Idealize.ShloMosaic.PureOps.Ideal
import Idealize.ShloMosaic.PureOps.Ideal.Laws
import Idealize.ShloMosaic.Lib.ValueIdx
import Idealize.ShloMosaic.Lib.Affine

noncomputable section

open scoped BigOperators

namespace Cert.MeanSpec

open Idealize.ShloMosaic Idealize.ShloMosaic.ValueIdx

/-- The layer's output, entry by entry, from the aggregate A, the clamped degree D and the layer's inputs. -/
def layer (A : (⟨2, ![100000, 128]⟩ : Shape).Idx → EReal) (D : (⟨1, ![100000]⟩ : Shape).Idx → EReal)
    (x : (⟨2, ![100000, 128]⟩ : Shape).Idx → EReal) (Wl : (⟨2, ![128, 128]⟩ : Shape).Idx → EReal)
    (b : (⟨1, ![128]⟩ : Shape).Idx → EReal) (Wr : (⟨2, ![128, 128]⟩ : Shape).Idx → EReal) :
    (⟨2, ![100000, 128]⟩ : Shape).Idx → EReal := fun i =>
  (∑ k : Fin 128, Ideal.div (A (ix2 (i 0) k)) (D (ix1 (i 0))) * Wl (ix2 k (i 1))) + b (ix1 (i 1))
    + ∑ k : Fin 128, x (ix2 (i 0) k) * Wr (ix2 k (i 1))

/-- The word of the float 1.0 is the number one. -/
theorem ofBits_one_f32 : Ideal.ofBits .f32 0x3F800000#32 = 1 := by
  simp [Ideal.ofBits, Ideal.ieee]
  rw [← EReal.coe_mul]
  norm_num

/-- Multiplying by the reciprocal of a nonzero extended real is dividing by it. -/
theorem mul_recip_eq_div (a d : EReal) (hd : d ≠ 0) : a * Ideal.div 1 d = Ideal.div a d := by
  rw [Ideal.div, if_neg hd, Ideal.div, if_neg hd, one_mul]

/-- A maximum with one is not zero. -/
theorem max_one_ne_zero (v : EReal) : max v 1 ≠ 0 :=
  (lt_of_lt_of_le zero_lt_one (le_max_right v 1)).ne'

/-- A node number in [-100000, 100000), wrapped into the non-negatives when negative, is a row number in [0, 99999]. -/
theorem wrap_in_range (s : BitVec 32) (h1 : (-100000 : ℤ) ≤ s.toInt) (h2 : s.toInt < 100000) :
    (0 : ℤ) ≤ (if s.toInt < 0 then s + 100000#32 else s).toInt
      ∧ (if s.toInt < 0 then s + 100000#32 else s).toInt ≤ 99999 := by
  split
  · next hneg =>
    have e : (s + 100000#32).toInt = s.toInt + 100000 := by
      rw [BitVec.toInt_add]
      have : (100000#32 : BitVec 32).toInt = 100000 := by decide
      rw [this]
      unfold Int.bmod
      dsimp only
      split <;> omega
    omega
  · next hpos => omega

end Cert.MeanSpec

end
-- ==== Proof.RefLayer.lean ====
/-
  The reference program's result is the layer function of MeanSpec.

  The reference ends in (A / D) · Wl + b + x · Wr, where A is its scatter-added aggregate and D its clamped degree,
  broadcast along the feature axis.  Read at one entry (i, j): the two matrix products are sums over the 128 input
  features, the broadcasts read D at node i and b at feature j.
-/
import proofs.«401643_j90778428768717_3_alg».proof.Proof.Gen.ReferenceIdeal.Read
import proofs.«401643_j90778428768717_3_alg».proof.Proof.MeanSpec

set_option maxRecDepth 65536

noncomputable section

open scoped BigOperators

namespace Cert.ReferenceIdeal.RefLayer

open Cert.ReferenceIdeal Cert.ReferenceIdeal.Read Idealize.ShloMosaic Idealize.ShloMosaic.ValueIdx Cert.MeanSpec

/-- Left operand of either product at (i, ·), feature k: entry (i, k). -/
theorem lidx23_eq (i : S100000x128.Idx) (k : Fin 128) : lidx_main_v23 i k = ix2 (n0 := 100000) (n1 := 128) (i 0) k :=
  funext fun a => Fin.ext (by match a with | ⟨0, _⟩ => rfl | ⟨1, _⟩ => rfl)
/-- Right operand at (·, j), feature k: entry (k, j). -/
theorem ridx23_eq (i : S100000x128.Idx) (k : Fin 128) : ridx_main_v23 i k = ix2 (n0 := 128) (n1 := 128) k (i 1) :=
  funext fun a => Fin.ext (by match a with | ⟨0, _⟩ => rfl | ⟨1, _⟩ => rfl)
theorem lidx27_eq (i : S100000x128.Idx) (k : Fin 128) : lidx_main_v27 i k = ix2 (n0 := 100000) (n1 := 128) (i 0) k :=
  funext fun a => Fin.ext (by match a with | ⟨0, _⟩ => rfl | ⟨1, _⟩ => rfl)
theorem ridx27_eq (i : S100000x128.Idx) (k : Fin 128) : ridx_main_v27 i k = ix2 (n0 := 128) (n1 := 128) k (i 1) :=
  funext fun a => Fin.ext (by match a with | ⟨0, _⟩ => rfl | ⟨1, _⟩ => rfl)
/-- The degree column broadcast along the features reads, at (i, k), the degree of node i. -/
theorem didx_eq (i : S100000x128.Idx) (k : Fin 128) :
    idx_main_v20 (idx_main_v21 (lidx_main_v23 i k)) = ix1 (n := 100000) (i 0) :=
  funext fun a => Fin.ext (by match a with | ⟨0, _⟩ => rfl)
/-- The bias row broadcast along the nodes reads, at (i, j), the bias of feature j. -/
theorem bidx_eq (i : S100000x128.Idx) : idx_main_v24 (idx_main_v25 i) = ix1 (n := 128) (i 1) :=
  funext fun a => Fin.ext (by match a with | ⟨0, _⟩ => rfl)

/-- The first product at (i, j): the sum over the features of (aggregate / degree) times the left weights. -/
theorem left_apply (x0 : (⟨S100000x128, .f32⟩ : BufTy).Contents (Elt Ideal)) (x1 : (⟨S2x625000, .i32⟩ : BufTy).Contents (Elt Ideal))
    (x2 : (⟨S128x128, .f32⟩ : BufTy).Contents (Elt Ideal)) (i : S100000x128.Idx) :
    val_main_v23 (F := Ideal) x0 x1 x2 i
      = ∑ k : Fin 128, Ideal.div (val_main_v13 (F := Ideal) x0 x1 (ix2 (n0 := 100000) (n1 := 128) (i 0) k))
          (val_main_v19 (F := Ideal) x1 (ix1 (n := 100000) (i 0))) * x2 (ix2 (n0 := 128) (n1 := 128) k (i 1)) := by
  rw [val_main_v23_apply]
  refine Finset.sum_congr rfl fun k _ => ?_
  rw [val_main_v22_apply, val_main_v21_apply, val_main_v20_apply, didx_eq, lidx23_eq, ridx23_eq]
  rfl

/-- The bias term at (i, j). -/
theorem bias_apply (x3 : (⟨S128, .f32⟩ : BufTy).Contents (Elt Ideal)) (i : S100000x128.Idx) :
    val_main_v25 (F := Ideal) x3 i = x3 (ix1 (n := 128) (i 1)) := by
  rw [val_main_v25_apply, val_main_v24_apply, bidx_eq]

/-- The second product at (i, j). -/
theorem right_apply (x0 : (⟨S100000x128, .f32⟩ : BufTy).Contents (Elt Ideal)) (x4 : (⟨S128x128, .f32⟩ : BufTy).Contents (Elt Ideal))
    (i : S100000x128.Idx) :
    val_main_v27 (F := Ideal) x0 x4 i
      = ∑ k : Fin 128, x0 (ix2 (n0 := 100000) (n1 := 128) (i 0) k) * x4 (ix2 (n0 := 128) (n1 := 128) k (i 1)) := by
  rw [val_main_v27_apply]
  refine Finset.sum_congr rfl fun k _ => ?_
  rw [lidx27_eq, ridx27_eq]

/-- The reference's result, as a function of its aggregate and its clamped degree, is the layer function. -/
theorem ref_is_layer (x0 : (⟨S100000x128, .f32⟩ : BufTy).Contents (Elt Ideal)) (x1 : (⟨S2x625000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) :
    val_main_v28 (F := Ideal) x0 x1 x2 x3 x4
      = layer (val_main_v13 (F := Ideal) x0 x1) (val_main_v19 (F := Ideal) x1) x0 x2 x3 x4 :=
  funext fun i => congrArg₂ (fun (a b : EReal) => a + b)
    (congrArg₂ (fun (a b : EReal) => a + b) (left_apply x0 x1 x2 i) (bias_apply x3 i)) (right_apply x0 x4 i)

end Cert.ReferenceIdeal.RefLayer

end
-- ==== Proof.NodeRange.lean ====
/-
  What the precondition says about the edge list.

  The precondition is a conjunction, reduced to one bit, of "every float input is finite" and "every entry s of the
  edge list's first row (the source node of an edge) satisfies -100000 <= s < 100000", the numbers read as signed
  32-bit integers.  Here the last conjunct is read back, edge by edge.
-/
import proofs.«401643_j90778428768717_3_alg».proof.Pre_finite_inputs
import Idealize.ShloMosaic.Lib.ReduceAll
import Idealize.ShloMosaic.Lib.ValueIdx

noncomputable section

namespace Cert.NodeRange

open Idealize.ShloMosaic Cert.Pre_finite_inputs

variable {F : FTy → Type} [FloatOps F] [Cert.Pre_finite_inputs.Facts]
open Cert.Pre_finite_inputs.Facts

/-- The first row of the [2 × 625000] edge list — the source node of every edge — as a vector. -/
def srcVec (ei : IVec S2x625000 32) : IVec S625000 32 :=
  shapeCast S625000 (extractStridedSlice S1x625000 ![0, 0] ei slices_S2x625000_S1x625000_0_0) shapeCasts_S1x625000_S625000

/-- Under the precondition every source node number is at least -100000 and below 100000. -/
theorem src_in_range (x : FVec F S100000x128 .f32) (ei : IVec S2x625000 32) (Wl : FVec F S128x128 .f32)
    (b : FVec F S128 .f32) (Wr : FVec F S128x128 .f32)
    (h : fn (F := F) x ei Wl b Wr = fun _ => 1#1) (e : S625000.Idx) :
    (-100000 : ℤ) ≤ (srcVec ei e).toInt ∧ (srcVec ei e).toInt < 100000 := by
  have h0 := congrFun h ValueIdx.ix0
  dsimp only [fn, fn_part1] at h0
  have h28 := (IntOp.andi_eq_one.mp h0).2
  haveI : Subsingleton S_.Idx := ⟨fun a b => funext fun d => d.elim0⟩
  have h27 := Host.reduce_andi_all _ _ _ _ _ h28 e
  obtain ⟨hge, hlt⟩ := IntOp.andi_eq_one.mp h27
  have hge' : (4294867296#32 : BitVec 32).toInt ≤ (srcVec ei e).toInt := IntOp.cmpi_sge.mp hge
  have hlt' : (srcVec ei e).toInt < (100000#32 : BitVec 32).toInt := IntOp.cmpi_slt.mp hlt
  have e1 : (4294867296#32 : BitVec 32).toInt = -100000 := by decide
  have e2 : (100000#32 : BitVec 32).toInt = 100000 := by decide
  rw [e1] at hge'
  rw [e2] at hlt'
  exact ⟨hge', hlt'⟩

end Cert.NodeRange

end
-- ==== Proof.Bridge.lean ====
/-
  Under the precondition the kernel program's result is the layer function of the reference's aggregate and degree.

  Three things join the two sides.
  (1) The source nodes.  Both programs wrap a negative node number by +100000 and read x at the result.  The kernel
      program, besides, replaces the row by a fill value where the wrapped number is not in [0, 99999].  The precondition
      puts every source node number in [-100000, 100000), so every wrapped number IS in [0, 99999], the replacement
      never happens, and the kernel program's messages are the rows the reference gathers.  Their scatter-added
      aggregates and their degree counts are then the same operations of the same arrays.
  (2) The mean.  The kernel program multiplies the aggregate by the column 1 / max(degree, 1); the reference divides by
      max(degree, 1).  max(., 1) is not zero, so the two agree on the extended reals (MeanSpec).
  (3) The bias, re-laid as a row on one side and broadcast on the other, reads the same entry.
-/
import proofs.«401643_j90778428768717_3_alg».proof.Proof.KernelHost
import proofs.«401643_j90778428768717_3_alg».proof.Proof.KernelValue
import proofs.«401643_j90778428768717_3_alg».proof.Proof.RefLayer
import proofs.«401643_j90778428768717_3_alg».proof.Proof.NodeRange
import proofs.«401643_j90778428768717_3_alg».proof.Proof.MeanSpec
import Idealize.ShloMosaic.Lib.ValueLayout
import Idealize.ShloMosaic.Lib.ReduceAll

set_option maxRecDepth 65536

noncomputable section

open scoped BigOperators

namespace Cert.Bridge

open Idealize.ShloMosaic Idealize.ShloMosaic.ValueIdx Cert.MeanSpec

/-! ## An and-reduction of ones is one -/

theorem foldl_andi_all_one {ι : Type} (f : ι → BitVec 1) :
    ∀ (l : List ι) (init : BitVec 1), init = 1#1 → (∀ n ∈ l, f n = 1#1) →
      l.foldl (fun r n => IntOp.andi r (f n)) init = 1#1
  | [], _, h, _ => h
  | a :: l, _, h, hl =>
    foldl_andi_all_one f l _ (IntOp.andi_eq_one.2 ⟨h, hl a List.mem_cons_self⟩)
      (fun n hn => hl n (List.mem_cons_of_mem _ hn))

theorem reduce_andi_of_all {s t u : Shape} {axes : List (Fin s.rank)} (x : s.Idx → BitVec 1) (init : u.Idx → BitVec 1)
    (h : s.ReducesTo axes t) (hu : 0 < u.numel) (j : t.Idx) (hinit : ∀ i, init i = 1#1) (hx : ∀ i, x i = 1#1) :
    Host.reduce IntOp.andi x init h hu j = 1#1 := by
  rw [Host.reduce_eq_foldl]
  exact foldl_andi_all_one x _ _ (hinit _) (fun n _ => hx n)

/-! ## A wrapped source node is a row of x -/

theorem wrapped_in_rows (s : BitVec 32) (h1 : (-100000 : ℤ) ≤ s.toInt) (h2 : s.toInt < 100000) :
    IntOp.cmpi .sge (Scalar.select (IntOp.cmpi .slt s 0#32) (IntOp.addi s 100000#32) s) 0#32 = 1#1
      ∧ IntOp.cmpi .sle (Scalar.select (IntOp.cmpi .slt s 0#32) (IntOp.addi s 100000#32) s) 99999#32 = 1#1 := by
  have z0 : (0#32 : BitVec 32).toInt = 0 := by decide
  have z9 : (99999#32 : BitVec 32).toInt = 99999 := by decide
  have hw : Scalar.select (IntOp.cmpi .slt s 0#32) (IntOp.addi s 100000#32) s
      = if s.toInt < 0 then s + 100000#32 else s := by
    by_cases hneg : s.toInt < 0
    · have hc : IntOp.cmpi .slt s 0#32 = 1#1 := IntOp.cmpi_slt.2 (by rw [z0]; exact hneg)
      rw [hc, select_one, if_pos hneg]
      rfl
    · have hc : IntOp.cmpi .slt s 0#32 = 0#1 :=
        eq_zero_of_ne_one (fun h => hneg (by have := IntOp.cmpi_slt.1 h; rwa [z0] at this))
      rw [hc, select_zero, if_neg hneg]
  rw [hw]
  obtain ⟨a, b⟩ := wrap_in_range s h1 h2
  exact ⟨IntOp.cmpi_sge.2 (by rw [z0]; exact a), IntOp.cmpi_sle.2 (by rw [z9]; exact b)⟩

section kernelSide

open Cert.KernelIdeal Cert.KernelIdeal.Gen Cert.KernelIdeal.Host

/-- With every source node number in [-100000, 100000), every edge's wrapped source node is a row of x. -/
theorem inRows_all (ei : IVec S2x625000 32)
    (hr : ∀ e : S625000.Idx, (-100000 : ℤ) ≤ (srcK ei e).toInt ∧ (srcK ei e).toInt < 100000) (e : S625000.Idx) :
    inRowsK ei e = 1#1 := by
  unfold inRowsK
  refine reduce_andi_of_all _ _ _ _ _ (fun _ => rfl) (fun i => ?_)
  obtain ⟨e', he'⟩ : ∃ e' : S625000.Idx, wrapColK ei i = wrapK ei e' := ⟨_, rfl⟩
  show IntOp.andi (IntOp.cmpi .sge (wrapColK ei i) 0#32) (IntOp.cmpi .sle (wrapColK ei i) 99999#32) = 1#1
  rw [he']
  exact IntOp.andi_eq_one.2 (wrapped_in_rows (srcK ei e') (hr e').1 (hr e').2)

/-- So the kernel program's messages are the gathered rows: the fill value is never taken. -/
theorem msgs_eq_rows (x : FVec Ideal S100000x128 .f32) (ei : IVec S2x625000 32)
    (hr : ∀ e : S625000.Idx, (-100000 : ℤ) ≤ (srcK ei e).toInt ∧ (srcK ei e).toInt < 100000) :
    msgsK (F := Ideal) x ei = rowsK x ei := by
  funext j
  unfold msgsK
  rw [select_apply]
  obtain ⟨e', he'⟩ : ∃ e' : S625000.Idx,
      broadcastInDim S625000x128 ![0] bcast_S625000_S625000x128_0 (inRowsK ei) j = inRowsK ei e' := ⟨_, rfl⟩
  rw [he', inRows_all ei hr e', select_one]

/-- A vector re-laid as a column reads, at (i, 0), the vector at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An entry of the quotient "ones over clamped degree": the float quotient of the literal 1.0 by the degree's entry. -/
theorem quotient_entry {F : FTy → Type} [FloatOps F] (ei : IVec S2x625000 32) (i : S100000.Idx) :
    Host.divf (broadcastInDim S100000 ![] bcast_S_S100000 (constant S_ .f32 0x3F800000#32)) (degK (F := F) ei) i
      = FloatOps.hostDivf (FloatOps.ofBits .f32 0x3F800000#32) (degK (F := F) ei i) := rfl

/-- An entry of the clamped degree: the float maximum of some count with the literal 1.0. -/
theorem deg_entry {F : FTy → Type} [FloatOps F] (ei : IVec S2x625000 32) (i : S100000.Idx) :
    ∃ v : F .f32, degK (F := F) ei i = FloatOps.maximumf v (FloatOps.ofBits .f32 0x3F800000#32) := ⟨_, rfl⟩

/-- The reciprocal column at node P is one over the clamped degree of P. -/
theorem recip_apply (ei : IVec S2x625000 32) (P : Fin 100000) :
    recipK (F := Ideal) ei (ix2 P (0 : Fin 1)) = Ideal.div 1 (degK (F := Ideal) ei (ix1 P)) := by
  unfold recipK
  rw [shapeCast_a_a1_apply]
  refine (quotient_entry (F := Ideal) ei (ix1 P)).trans ?_
  rw [Ideal.hostDivf_def, Ideal.ofBits_def, ofBits_one_f32]

/-- The clamped degree is never zero. -/
theorem deg_ne_zero (ei : IVec S2x625000 32) (i : S100000.Idx) : degK (F := Ideal) ei i ≠ 0 := by
  obtain ⟨v, hv⟩ := deg_entry (F := Ideal) ei i
  rw [hv, Ideal.maximumf_def, Ideal.ofBits_def, ofBits_one_f32]
  exact max_one_ne_zero v

end kernelSide

/-! ## The fused call's function is the layer function -/

theorem fused_eq_layer (A : (⟨2, ![100000, 128]⟩ : Shape).Idx → EReal) (R : (⟨2, ![100000, 1]⟩ : Shape).Idx → EReal)
    (D : (⟨1, ![100000]⟩ : Shape).Idx → EReal) (x : (⟨2, ![100000, 128]⟩ : Shape).Idx → EReal)
    (Wl : (⟨2, ![128, 128]⟩ : Shape).Idx → EReal) (B : (⟨2, ![1, 128]⟩ : Shape).Idx → EReal)
    (b : (⟨1, ![128]⟩ : Shape).Idx → EReal) (Wr : (⟨2, ![128, 128]⟩ : Shape).Idx → EReal)
    (hR : ∀ P : Fin 100000, R (ix2 P (0 : Fin 1)) = Ideal.div 1 (D (ix1 P))) (hD : ∀ i, D i ≠ 0)
    (hB : ∀ q : Fin 128, B (ix2 (0 : Fin 1) q) = b (ix1 q)) :
    Cert.KernelIdeal.Whole.fused A R x Wl B Wr = layer A D x Wl b Wr := by
  funext i
  unfold Cert.KernelIdeal.Whole.fused layer
  refine congrArg₂ (fun (a b : EReal) => a + b) (congrArg₂ (fun (a b : EReal) => a + b)
    (Finset.sum_congr rfl fun k _ => ?_) (hB _)) rfl
  rw [hR (i 0), mul_recip_eq_div _ _ (hD _)]

/-! ## The two programs' aggregates and degrees are the same operations -/

theorem agg_same (x : FVec Ideal Cert.KernelIdeal.S100000x128 .f32) (ei : IVec Cert.KernelIdeal.S2x625000 32) :
    Cert.KernelIdeal.Host.aggOf ei (Cert.KernelIdeal.Host.rowsK (F := Ideal) x ei)
      = Cert.ReferenceIdeal.Read.val_main_v13 (F := Ideal) x ei := rfl

theorem deg_same (ei : IVec Cert.KernelIdeal.S2x625000 32) :
    Cert.KernelIdeal.Host.degK (F := Ideal) ei = Cert.ReferenceIdeal.Read.val_main_v19 (F := Ideal) ei := rfl

/-! ## The kernel program's result under the precondition -/

section joined

variable [Cert.Pre_finite_inputs.Facts]

open Cert.KernelIdeal Cert.KernelIdeal.Gen Idealize.ShloMosaic.TcCoe Idealize.SL.Sem

/-- Where the precondition holds, the fused call's function of the arrays it reads is the layer function of the
    reference's aggregate and clamped degree of the arguments. -/
theorem kernel_is_layer (m : (ℓ : Loc nD τ sig) → Buf (Elt Ideal) ℓ) (c : Dev nD)
    (hpre : Cert.Pre_finite_inputs.fn (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) = fun _ => 1#1) :
    Whole.fused (Whole.aggArr m c) (Whole.recArr m c) (Whole.xArr m c) (Whole.wlArr m c) (Whole.bArr m c) (Whole.wrArr m c)
      = layer (Cert.ReferenceIdeal.Read.val_main_v13 (F := Ideal) (m ((c.tc : Thread nD τ).loc main_arg0)) (m ((c.tc : Thread nD τ).loc main_arg1)))
          (Cert.ReferenceIdeal.Read.val_main_v19 (F := Ideal) (m ((c.tc : Thread nD τ).loc main_arg1)))
          (m ((c.tc : Thread nD τ).loc main_arg0)) (m ((c.tc : Thread nD τ).loc main_arg2))
          (m ((c.tc : Thread nD τ).loc main_arg3)) (m ((c.tc : Thread nD τ).loc main_arg4)) := by
  have hr : ∀ e : S625000.Idx, (-100000 : ℤ) ≤ (Host.srcK (m ((c.tc : Thread nD τ).loc main_arg1)) e).toInt
      ∧ (Host.srcK (m ((c.tc : Thread nD τ).loc main_arg1)) e).toInt < 100000 :=
    fun e => Cert.NodeRange.src_in_range _ _ _ _ _ hpre e
  have hA : Whole.aggArr m c = Cert.ReferenceIdeal.Read.val_main_v13 (F := Ideal) (m ((c.tc : Thread nD τ).loc main_arg0)) (m ((c.tc : Thread nD τ).loc main_arg1)) :=
    (Host.V_agg m c).trans ((congrArg (Host.aggOf _) (msgs_eq_rows _ _ hr)).trans (agg_same _ _))
  have hRc : Whole.recArr m c = Host.recipK (F := Ideal) (m ((c.tc : Thread nD τ).loc main_arg1)) := Host.V_recip m c
  have hX : Whole.xArr m c = m ((c.tc : Thread nD τ).loc main_arg0) := V_main_arg0 m c
  have hWl : Whole.wlArr m c = m ((c.tc : Thread nD τ).loc main_arg2) := V_main_arg2 m c
  have hWr : Whole.wrArr m c = m ((c.tc : Thread nD τ).loc main_arg4) := V_main_arg4 m c
  have hB : Whole.bArr m c = shapeCast S1x128 (m ((c.tc : Thread nD τ).loc main_arg3)) shapeCasts_S128_S1x128 := Host.V_bias m c
  rw [hA, hRc, hX, hWl, hWr, hB]
  refine fused_eq_layer _ _ _ _ _ _ _ _ (fun P => ?_) (fun i => ?_) (fun q => ?_)
  · exact (recip_apply _ P).trans (congrArg (fun D : S100000.Idx → EReal => Ideal.div 1 (D (ix1 P))) (deg_same _))
  · have h := deg_ne_zero (m ((c.tc : Thread nD τ).loc main_arg1)) i
    rwa [deg_same] at h
  · exact shapeCast_a_1a_apply _ _ (0 : Fin 1) q

end joined

end Cert.Bridge

end
-- ==== Proof.lean ====
/-
  A graph layer with mean aggregation, out = mean over in-neighbours of x · Wl + b + x · Wr, over 100000 nodes,
  625000 edges and 128 features: a program that forms the neighbour sums and the reciprocal degrees on the host and fuses
  "aggregate * (1 / degree), two 128 × 128 products, bias" into one call over 25 blocks of 4000 nodes, against a plain
  reference that divides the aggregate by the degree and multiplies.

  Statement.  The precondition is: every float input finite, and every source node number s of the edge list in
  [-100000, 100000) — the valid (possibly negative, wrapping) row numbers of x.  Outside that range the two programs treat
  an out-of-range row number differently (one clamps it, the other substitutes a fill row), so the range is needed; inside
  it nothing else is, and finiteness is never used.

  Proof.  Frames: the two kernel programs' frames are the generated ones; the reference's is its generated run with
  the result dropped.  The idealization rewrote nothing, so the preserving claim is trivial.  Values: both programs end
  holding the function MeanSpec.layer of the reference's scatter-added aggregate A and clamped degree D of the arguments —
  the reference by reading its run entry by entry (RefLayer), the kernel program because each of its 25 blocks writes
  the fused call's function of the rows it covers (KernelBody, KernelValue), the host arrays it reads are A, 1 / D and the
  bias (KernelHost), and a * (1 / d) = a / d for d = max(., 1) ≠ 0 on the extended reals (MeanSpec, Bridge).
-/
import proofs.«401643_j90778428768717_3_alg».proof.Defs
import proofs.«401643_j90778428768717_3_alg».proof.Proof.Gen.Kernel
import proofs.«401643_j90778428768717_3_alg».proof.Proof.Gen.Kernel.Skeleton
import proofs.«401643_j90778428768717_3_alg».proof.Proof.Gen.Kernel.Launch
import proofs.«401643_j90778428768717_3_alg».proof.Proof.Gen.Kernel.Points
import proofs.«401643_j90778428768717_3_alg».proof.Proof.Gen.Kernel.Frame
import proofs.«401643_j90778428768717_3_alg».proof.Proof.Gen.KernelIdeal
import proofs.«401643_j90778428768717_3_alg».proof.Proof.Gen.KernelIdeal.Skeleton
import proofs.«401643_j90778428768717_3_alg».proof.Proof.Gen.KernelIdeal.Launch
import proofs.«401643_j90778428768717_3_alg».proof.Proof.Gen.KernelIdeal.Points
import proofs.«401643_j90778428768717_3_alg».proof.Proof.Gen.KernelIdeal.Frame
import proofs.«401643_j90778428768717_3_alg».proof.Proof.Gen.ReferenceIdeal
import proofs.«401643_j90778428768717_3_alg».proof.Proof.Gen.Pre_finite_inputs
import proofs.«401643_j90778428768717_3_alg».proof.Proof.Gen.KernelIdeal.Value
import proofs.«401643_j90778428768717_3_alg».proof.Proof.Gen.ReferenceIdeal.Run
import proofs.«401643_j90778428768717_3_alg».proof.Proof.Gen.ReferenceIdeal.Read
import proofs.«401643_j90778428768717_3_alg».proof.Proof.Bridge
import Idealize.ShloMosaic.Adequacy
import Idealize.ShloMosaic.Init

set_option maxRecDepth 65536

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both programs end holding the layer function of the reference's aggregate
    and clamped degree of those arguments. -/
theorem algebraic : Cert.algebraic_KernelIdeal_ReferenceIdeal := by
  intro m ρ m' ρ' hpre hagree
  refine ⟨fun c => Cert.MeanSpec.layer
      (Cert.ReferenceIdeal.Read.val_main_v13 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1)))
      (Cert.ReferenceIdeal.Read.val_main_v19 (F := Ideal)
        (m ((c.tc : Thread Cert.KernelIdeal.nD Cert.KernelIdeal.τ).loc Cert.KernelIdeal.main_arg1)))
      (m ((c.tc : Thread Cert.KernelIdeal.nD Cert.KernelIdeal.τ).loc Cert.KernelIdeal.main_arg0))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono
      (fun r h c => ⟨(h c).1.trans (Cert.Bridge.kernel_is_layer m c (hpre c)), (h c).2⟩)
      (Cert.KernelIdeal.Whole.run m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v28_eq, Cert.ReferenceIdeal.RefLayer.ref_is_layer,
      (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
